-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S1x1 : Shape := ⟨2, ![1, 1]⟩
abbrev S8192x128 : Shape := ⟨2, ![8192, 128]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1, .f32⟩
  | .local _ .vmem, ⟨5, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v18 : BitVec 1 := Scalar.cmpi .eq arg0 c31_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel

variable [Facts₀]

class Facts : Prop extends Facts₀ where

variable [Facts]
-- ==== Proof.Pieces.lean ====
/-
  The idealized kernel's body, one run at a time: what each of its three control cases leaves in the scratch that
  carries the running total, and in the output, as the body's own pure payload of the point's two input blocks and of
  the scratch's previous contents. Stated for any float instance: nothing here looks inside the payload.
-/
import proofs.«153729_j19258633355996_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access, however they are spelt. -/
theorem hz : (![0, 0] : Fin 2 → Nat) = fun _ => 0 := funext fun a => by fin_cases a <;> rfl

/-! ## What one run of the body leaves, case by case

The body has three control cases: the grid's first point (the running total is reset, then the point's block sum is
added), the points in between (the block sum is added), and the last point (the block sum is added and the total is
copied to the output). In every case the scratch ends at ONE value of the point's two input blocks and of what the
scratch held before: the body's second payload `k0_pay2`, with the reset value `k0_pay1` in the scratch's place at the
first point. At the last point the output's staging buffer ends at the same value, read back from the scratch. -/

/-- The first point: the scratch is reset to `k0_pay1`, read back, and left at `k0_pay2` of the two blocks over it. -/
theorem scratch_A (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S8192x128 .f32) :
    sout0_A_0 c i a1 h1 a2 h2 a3 h3 a4 h4 hc0 hc1 x0 x1 = k0_pay2 x0 x1 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x128) hz]

/-- A point in between: the scratch, holding `xs`, is left at `k0_pay2` of the two blocks over `xs`. -/
theorem scratch_B (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S8192x128 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S8192x128) hz,
    View.ld_unit_zero (S := S1x1) hz]

/-- The last point, the scratch: as at a point in between. -/
theorem scratch_C (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8192x128 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S8192x128) hz,
    View.ld_unit_zero (S := S1x1) hz]

/-- The last point, the output: the scratch's new value, read back and stored whole. -/
theorem out_C (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8192x128 .f32) (xs : Vec F S1x1 .f32) :
    out0_C_2 c i a1 h1 a2 h2 a3 h3 a4 h4 hc0 hc1 x0 x1 xs = k0_pay2 x0 x1 xs := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S8192x128) hz,
    View.ld_unit_zero (S := S1x1) hz]

end Cert.KernelIdeal.Pieces

end
-- ==== Proof.Accumulation.lean ====
/-
  The idealized kernel's running total, point by point, and the array it ends in.

  The scratch that carries the total holds, after grid point `n`, the value `acc n`: the body's payload of point `n`'s two
  input blocks over `acc (n - 1)`, and over the reset value at the first point. This is proved by induction on the point,
  never by listing the 32 points. The output window's one block is the whole `[1, 1]` result array and is written back
  after the last point only, where the body copied the scratch into it; so the result array ends holding `acc 31`.
  Stated for any float instance.
-/
import proofs.«153729_j19258633355996_1_alg».proof.Proof.Pieces

noncomputable section

open Idealize.ShloMosaic Idealize.ShloMosaic.TcCoe Idealize.SL.Sem
open Idealize.ShloMosaic.Pipeline (Dat)

namespace Cert.KernelIdeal.Accumulation

open Cert.KernelIdeal Cert.KernelIdeal.Gen

variable {F : FTy → Type} [FloatOps F]
variable (m : (ℓ : Loc nD τ sig) → Buf (Elt F) ℓ) (ρ : Dev nD → PrngReg)

/-- Point `t`'s block of the first operand (`φ`, reshaped to rows of 128 lanes), at its literal type. -/
abbrev phiBlk (c : Dev nD) (t : Fin cfg0.N) : Vec F S8192x128 .f32 := iblk m c 0 t
/-- Point `t`'s block of the second operand (`w`), at its literal type. -/
abbrev wBlk (c : Dev nD) (t : Fin cfg0.N) : Vec F S8192x128 .f32 := iblk m c 1 t

/-- The running total after point `n`: the payload of that point's blocks over the total before it; at the first
    point over the reset value. -/
def acc (c : Dev nD) : (n : ℕ) → n < cfg0.N → Vec F S1x1 .f32
  | 0, h => k0_pay2 (phiBlk m c ⟨0, h⟩) (wBlk m c ⟨0, h⟩) k0_pay1
  | n + 1, h => k0_pay2 (phiBlk m c ⟨n + 1, h⟩) (wBlk m c ⟨n + 1, h⟩) (acc c n (Nat.lt_of_succ_lt h))

/-- What the scratch holds after point `n` is the running total — by induction on the point: the first point is the
    reset case; a later point is the last-point case or the in-between case, and both leave the same payload over what
    the point before left. -/
theorem scratch_eq (c : Dev nD) : ∀ (n : ℕ) (h : n < cfg0.N), (outsAt0 m c n h).2 = acc m c n h
  | 0, h => by
    rw [outsAt0_A m c ⟨0, h⟩ rfl (by show ¬(0 : ℕ) % 32 = 31; omega)]
    dsimp only
    exact Pieces.scratch_A c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [Pieces.scratch_C c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)]
      show k0_pay2 _ _ (outsAt0 m c n _).2 = k0_pay2 _ _ (acc m c n _)
      rw [scratch_eq c n]
    · rw [outsAt0_B m c ⟨n + 1, h⟩ h0 h1]
      dsimp only
      rw [Pieces.scratch_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)]
      show k0_pay2 _ _ (outsAt0 m c n _).2 = k0_pay2 _ _ (acc m c n _)
      rw [scratch_eq c n]

/-- The grid's last point. -/
abbrev tLast : Fin cfg0.N := ⟨31, by rw [show cfg0.N = 32 from N_0]; decide⟩

/-- At the last point the output's staging buffer ends at the running total: the body stores what it reads back from
    the scratch it has just updated. -/
theorem out_last (c : Dev nD) : (outsAt0 m c tLast.val tLast.isLt).1 = acc m c tLast.val tLast.isLt := by
  rw [outsAt0_C m c tLast (by decide) (by decide)]
  dsimp only
  rw [Pieces.out_C c (grid0.coords tLast) (ms0_0 tLast) (hs0_0 tLast) (ms0_1 tLast) (hs0_1 tLast)
    (ms0_2 tLast) (hs0_2 tLast) scM0_0 (Memref.isWhole_whole _) _ _ (iblk m c 0 tLast) (iblk m c 1 tLast)]
  show k0_pay2 _ _ (outsAt0 m c 30 _).2 = k0_pay2 _ _ (acc m c 30 _)
  rw [scratch_eq m c 30]

/-- The result array's contents after the run: the running total after the last point (the array is `[1, 1]`, as the
    scratch is). -/
abbrev result (c : Dev nD) : Buf (Elt F) ((c : Thread nD τ).loc main_v2) := acc m c tLast.val tLast.isLt

/-- The one write-back, after the last point, writes it: the output's block is the whole array, read at zero offsets. -/
theorem flushed_eq (c : Dev nD) (t : Fin cfg0.N) (hf : (cfg0.win 2).flush t = true) :
    (dats m 0 c).flushed 2 t = ((cfg0.win 2).blk t).view.read (Elt F) (result m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, out_last]
  have hz' : (fun a => win0_2.index tLast a * main_v2.ty.shape.size a) = fun _ => 0 :=
    funext fun a => by fin_cases a <;> decide +kernel
  exact (Memref.read_access_unit_zero (Elt F) main_v2 hz' (fun a => by rw [congrFun hz' a]; simp) (result m c)).symm

/-- So the result array ends holding the running total: the last point's block covers its one entry. -/
theorem final_out (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

end Cert.KernelIdeal.Accumulation

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.LibAxisZeroSum.lean ====
/-
  A sum over the FIRST axis of a rank-2 array, read at an index, for any extents: what `jnp.sum(…, axis=0)` of an
  `[a, b]` array is at column `c`, at the extended reals — the plain sum of the column's `a` entries.
-/
import Idealize.ShloMosaic.Lib.ValueIdx
import Idealize.ShloMosaic.PureOps.Ideal.Laws

noncomputable section

namespace Idealize.ShloMosaic.AxisZeroSum

open Idealize.ShloMosaic Idealize.ShloMosaic.ValueIdx

/-- At the extended reals a sum of an `[a, b]` array over its first axis, from the zero accumulator, reads at column
    `c` as the sum of the column: the reduced index `c` with the row coordinate `k` put back is `(k, c)`. -/
theorem columnSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.AxisZeroSum

end
-- ==== Proof.PointValue.lean ====
/-
  One run of the body, read as numbers. At the extended reals the body's payload, over two `[8192, 128]` blocks `x₀`, `x₁`
  and the `[1, 1]` scratch `xs`, is at its one index

      xs + ∑ᵣ ∑ₗ cos (x₀[r, l] · x₁[r, l]) :

  the product and the cosine are taken entry by entry; the first reduction adds up each row's 128 lanes, the second the
  8192 row sums, each from the zero accumulator, which contributes nothing; the shape casts in between only rename
  indices. The reset value is the number zero.
-/
import proofs.«153729_j19258633355996_1_alg».proof.Proof.Gen.KernelIdeal.Skeleton
import proofs.«153729_j19258633355996_1_alg».proof.Proof.LibKeepdims
import proofs.«153729_j19258633355996_1_alg».proof.Proof.LibAxisZeroSum
import Idealize.ShloMosaic.Lib.ValueLayout
import Idealize.ShloMosaic.Lib.Pipeline.Value

noncomputable section

open Idealize.ShloMosaic Idealize.ShloMosaic.ValueIdx

namespace Cert.KernelIdeal.PointValue

open Cert.KernelIdeal Cert.KernelIdeal.Gen

/-- The value the first point resets the scratch to is zero. -/
theorem reset_apply (j : S1x1.Idx) : k0_pay1 (F := Ideal) j = 0 := by
  unfold k0_pay1
  rw [shapeCast_self]
  exact Ideal.ofBits_zero_f32

/-- The payload at its one index: the scratch's entry plus the block's sum of `cos (x₀ · x₁)`, row by row. -/
theorem payload_apply (x0 x1 : Vec Ideal S8192x128 .f32) (xs : Vec Ideal S1x1 .f32) (j : S1x1.Idx) :
    k0_pay2 (F := Ideal) x0 x1 xs j = xs j + ∑ r : Fin 8192, ∑ l : Fin 128, Ideal.cos (x0 (ix2 r l) * x1 (ix2 r l)) := by
  obtain ⟨u, v, rfl⟩ : ∃ (u v : Fin 1), j = ix2 u v := ⟨j 0, j 1, eq_ix2 j⟩
  unfold k0_pay2
  simp only [shapeCast_self]
  refine congrArg (xs (ix2 u v) + ·) ?_
  refine (shapeCast_a_1a_apply _ _ u v).trans ?_
  refine (AxisZeroSum.columnSum_apply _ _ _ _ _ v).trans ?_
  refine Finset.sum_congr rfl fun r _ => ?_
  refine (Keepdims.shapeCast_a_a1_apply _ _ r v).trans ?_
  exact Keepdims.laneSum_apply _ _ _ _ _ r

end Cert.KernelIdeal.PointValue

end
-- ==== Proof.BlockRead.lean ====
/-
  Where a block's entry lies in the flat argument. The two operands the kernel streams are the two flat arguments viewed
  as `[262144, 128]` (a reshape on the host, before the kernel is launched), and point `t`'s block is rows
  `8192 t, …, 8192 t + 8191`: its entry `(r, l)` is the argument's entry at flat position `t · 2^20 + (r · 128 + l)`.
  Stated for any float instance.
-/
import proofs.«153729_j19258633355996_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.BlockRead

open Cert.KernelIdeal Cert.KernelIdeal.Gen

variable {F : FTy → Type} [FloatOps F]
variable (m : (ℓ : Loc nD τ sig) → Buf (Elt F) ℓ)

/-- The first operand as the kernel finds it: the first argument, reshaped. -/
theorem V_phi (c : Dev nD) : (V m c main_v0 : S262144x128.Idx → Elt F .f32)
    = shapeCast S262144x128 (m ((c : Thread nD τ).loc main_arg0)) shapeCasts_S33554432_S262144x128 := by
  show StableHlo.after hostOps0 (fun b => m (c, b)) (Proc.devRef .tc main_v0) = _
  after_results
  rfl

/-- The second operand as the kernel finds it: the second argument, reshaped. -/
theorem V_w (c : Dev nD) : (V m c main_v1 : S262144x128.Idx → Elt F .f32)
    = shapeCast S262144x128 (m ((c : Thread nD τ).loc main_arg1)) shapeCasts_S33554432_S262144x128 := by
  show StableHlo.after hostOps0 (fun b => m (c, b)) (Proc.devRef .tc main_v1) = _
  after_results
  rfl

/-- Both operands' blocks at point `t` start at row block `t`, lane block `0`. -/
theorem index_facts : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- Entry `(R, l)` of a flat array of `2^25` entries viewed as `[262144, 128]` is its entry at `R · 128 + l`. -/
theorem reshape_apply {α : Type} (x : S33554432.Idx → α) (R : Fin 262144) (l : Fin 128) (k : Fin 33554432) (hk : k.val = R.val * 128 + l.val) :
    shapeCast S262144x128 x shapeCasts_S33554432_S262144x128 (ix2 R l) = x (ix1 k) :=
  shapeCast_apply x _ _ _ (by
    rw [Shape.rowMajor_val_two, Shape.rowMajor_val_one]
    exact hk)

/-- The flat position of entry `(r, l)` of point `t`'s block is inside the arrays. -/
theorem flat_lt (t : Fin cfg0.N) (r : Fin 8192) (l : Fin 128) : t.val * (8192 * 128) + (r.val * 128 + l.val) < 33554432 := by
  have hN : t.val < 32 := lt_of_lt_of_eq t.isLt (show cfg0.N = 32 from N_0)
  have := r.isLt; have := l.isLt; omega

/-- Entry `(r, l)` of point `t`'s block of the first operand. -/
theorem phiBlk_apply (c : Dev nD) (t : Fin cfg0.N) (r : Fin 8192) (l : Fin 128) :
    (iblk m c 0 t : Vec F S8192x128 .f32) (ix2 r l)
      = m ((c : Thread nD τ).loc main_arg0) (ix1 ⟨t.val * (8192 * 128) + (r.val * 128 + l.val), flat_lt t r l⟩) := by
  have hN : t.val < 32 := lt_of_lt_of_eq t.isLt (show cfg0.N = 32 from N_0)
  have hr := r.isLt
  have he : ((cfg0.win 0).blk t).view.emb (ix2 r l) = ix2 (⟨t.val * 8192 + r.val, by omega⟩ : Fin 262144) l := by
    funext a
    apply Fin.ext
    match a with
    | ⟨0, _⟩ =>
      show win0_0.index t 0 * 8192 + 1 * r.val = t.val * 8192 + r.val
      rw [(index_facts t).1.1]; omega
    | ⟨1, _⟩ =>
      show win0_0.index t 1 * 128 + 1 * l.val = l.val
      rw [(index_facts t).1.2]; omega
  unfold iblk
  rw [View.read_apply]
  show V m c main_v0 _ = _
  rw [V_phi, he]
  exact reshape_apply _ _ _ _ (by show t.val * (8192 * 128) + (r.val * 128 + l.val) = (t.val * 8192 + r.val) * 128 + l.val; omega)

/-- Entry `(r, l)` of point `t`'s block of the second operand. -/
theorem wBlk_apply (c : Dev nD) (t : Fin cfg0.N) (r : Fin 8192) (l : Fin 128) :
    (iblk m c 1 t : Vec F S8192x128 .f32) (ix2 r l)
      = m ((c : Thread nD τ).loc main_arg1) (ix1 ⟨t.val * (8192 * 128) + (r.val * 128 + l.val), flat_lt t r l⟩) := by
  have hN : t.val < 32 := lt_of_lt_of_eq t.isLt (show cfg0.N = 32 from N_0)
  have hr := r.isLt
  have he : ((cfg0.win 1).blk t).view.emb (ix2 r l) = ix2 (⟨t.val * 8192 + r.val, by omega⟩ : Fin 262144) l := by
    funext a
    apply Fin.ext
    match a with
    | ⟨0, _⟩ =>
      show win0_1.index t 0 * 8192 + 1 * r.val = t.val * 8192 + r.val
      rw [(index_facts t).2.1]; omega
    | ⟨1, _⟩ =>
      show win0_1.index t 1 * 128 + 1 * l.val = l.val
      rw [(index_facts t).2.2]; omega
  unfold iblk
  rw [View.read_apply]
  show V m c main_v1 _ = _
  rw [V_w, he]
  exact reshape_apply _ _ _ _ (by show t.val * (8192 * 128) + (r.val * 128 + l.val) = (t.val * 8192 + r.val) * 128 + l.val; omega)

end Cert.KernelIdeal.BlockRead

end
-- ==== Proof.BlockSums.lean ====
/-
  Sums of consecutive entries of a sequence, cut into blocks of rows of lanes.

  A kernel that streams a flat array as `T` blocks of `R` rows of `L` lanes, and adds up each row, then the rows of a
  block, then the blocks one after another, has added up every entry of the array exactly once: in a commutative monoid
  the nested sums are the one sum over the `T * (R * L)` consecutive positions (`sum_blocks_rows_lanes`). A running total
  that starts from `z` and adds one block's sum per step is `z` plus the sum of the blocks so far (`running_total`).
  Nothing here needs more of the values than that their addition is associative and commutative with a zero, so the
  statements hold over the extended reals with their infinities included.
-/
import Mathlib.Algebra.BigOperators.Fin

namespace Cert.Proof.BlockSums

open Finset

variable {M : Type*} [AddCommMonoid M]

/-- `R` rows of `L` lanes laid one after another from position `b`: adding up each row lane by lane and then the rows
    is adding up the `R * L` consecutive entries. By induction on the number of rows: the last row is the last `L`
    positions. -/
theorem sum_rows_lanes (f : ℕ → M) (L b : ℕ) :
    ∀ R : ℕ, ∑ r : Fin R, ∑ l : Fin L, f (b + (r.val * L + l.val)) = ∑ j ∈ range (R * L), f (b + j)
  | 0 => by simp
  | R + 1 => by
    rw [Fin.sum_univ_castSucc, Nat.succ_mul, sum_range_add]
    simp only [Fin.coe_castSucc, Fin.val_last]
    rw [sum_rows_lanes f L b R]
    congr 1
    exact Fin.sum_univ_eq_sum_range (fun x => f (b + (R * L + x))) L

/-- `T` blocks of `B` consecutive entries each, from position `0`: the blocks' sums add up to the sum of the first
    `T * B` entries. By induction on the number of blocks. -/
theorem sum_blocks (f : ℕ → M) (B : ℕ) :
    ∀ T : ℕ, ∑ t ∈ range T, ∑ j ∈ range B, f (t * B + j) = ∑ k ∈ range (T * B), f k
  | 0 => by simp
  | T + 1 => by rw [sum_range_succ, sum_blocks f B T, Nat.succ_mul, sum_range_add]

/-- Blocks of rows of lanes: the three nested sums are the sum over every position below `N = T * (R * L)`. -/
theorem sum_blocks_rows_lanes (f : ℕ → M) (T R L N : ℕ) (hN : T * (R * L) = N) :
    ∑ t ∈ range T, ∑ r : Fin R, ∑ l : Fin L, f (t * (R * L) + (r.val * L + l.val)) = ∑ k ∈ range N, f k := by
  subst hN
  rw [← sum_blocks f (R * L) T]
  exact sum_congr rfl fun t _ => sum_rows_lanes f L (t * (R * L)) R

/-- A running total `a`, kept for the steps below `N`, that starts at `z + s 0` and adds `s (n + 1)` at step `n + 1` is,
    after step `n`, `z` plus the sum of `s` over the steps `0, …, n`. -/
theorem running_total (N : ℕ) (z : M) (s : ℕ → M) (a : (n : ℕ) → n < N → M)
    (h0 : ∀ h, a 0 h = z + s 0) (hs : ∀ n h, a (n + 1) h = a n (Nat.lt_of_succ_lt h) + s (n + 1)) :
    ∀ n h, a n h = z + ∑ t ∈ range (n + 1), s t
  | 0, h => by rw [h0 h, sum_range_one]
  | n + 1, h => by rw [hs n h, running_total N z s a h0 hs n _, sum_range_succ _ (n + 1), add_assoc]

end Cert.Proof.BlockSums
-- ==== Proof.SumCos.lean ====
/-
  What both programs compute, as one number: for two arrays `φ`, `w` of `2^25` entries,

      mean φ w = (0 + ∑ₖ cos (φₖ · wₖ) + 0) / 2^25 .

  The kernel streams the arrays as 32 blocks of 8192 rows of 128 lanes and keeps a running total; the reference takes
  one sum over all `2^25` positions. `term` is the summand at a flat position, `total` the sum, `blocks_total` the
  statement that the blocks' row-by-row sums add up to it, and `mean` the two host lines (an addition of the literal
  zero, a division by the literal `2^25`) that both programs end with, kept closed: the two sides apply the same
  lines to the same sum, so nothing about the quotient is needed.
-/
import Idealize.ShloMosaic.Lib.ValueIdx
import Idealize.ShloMosaic.PureOps.Ideal.Laws
import proofs.«153729_j19258633355996_1_alg».proof.Proof.BlockSums

noncomputable section

namespace Cert.Proof.SumCos

open Idealize.ShloMosaic Idealize.ShloMosaic.ValueIdx Finset

/-- `cos (φₖ · wₖ)` at flat position `k`; `0` past the arrays' end, where nothing is ever summed. -/
def term (phi w : (⟨1, ![33554432]⟩ : Shape).Idx → EReal) (k : ℕ) : EReal :=
  if h : k < 33554432 then Ideal.cos (phi (ix1 ⟨k, h⟩) * w (ix1 ⟨k, h⟩)) else 0

theorem term_of_lt (phi w : (⟨1, ![33554432]⟩ : Shape).Idx → EReal) {k : ℕ} (h : k < 33554432) :
    term phi w k = Ideal.cos (phi (ix1 ⟨k, h⟩) * w (ix1 ⟨k, h⟩)) := dif_pos h

/-- The sum of `cos (φₖ · wₖ)` over all `2^25` positions. -/
def total (phi w : (⟨1, ![33554432]⟩ : Shape).Idx → EReal) : EReal := ∑ k ∈ range 33554432, term phi w k

/-- Read one position at a time through its coordinate. -/
theorem total_eq_sum_fin (phi w : (⟨1, ![33554432]⟩ : Shape).Idx → EReal) :
    total phi w = ∑ k : Fin 33554432, Ideal.cos (phi (ix1 k) * w (ix1 k)) := by
  unfold total
  rw [← Fin.sum_univ_eq_sum_range (term phi w) 33554432]
  exact sum_congr rfl fun k _ => term_of_lt phi w k.isLt

/-- 32 blocks of 8192 rows of 128 lanes: block `t`, row `r`, lane `l` is flat position `t · 2^20 + (r · 128 + l)`, and
    the nested sums are the total. -/
theorem blocks_total (phi w : (⟨1, ![33554432]⟩ : Shape).Idx → EReal) :
    ∑ t ∈ range 32, ∑ r : Fin 8192, ∑ l : Fin 128, term phi w (t * (8192 * 128) + (r.val * 128 + l.val)) = total phi w :=
  BlockSums.sum_blocks_rows_lanes (term phi w) 32 8192 128 33554432 (by norm_num)

/-- The two host lines both programs end with: add the literal zero, divide by the literal `2^25`. -/
def mean (s : FVec Ideal ⟨0, ![]⟩ .f32) : FVec Ideal ⟨0, ![]⟩ .f32 :=
  Host.divf (F := Ideal) (addf s (constant (F := Ideal) ⟨0, ![]⟩ .f32 0x00000000#32)) (constant (F := Ideal) ⟨0, ![]⟩ .f32 0x4C000000#32)

end Cert.Proof.SumCos

end
-- ==== Proof.KernelRun.lean ====
/-
  The idealized kernel's run, read: the result of @main and the number it holds.

  After the kernel region the host reshapes the `[1, 1]` result array to a scalar, adds the literal zero and divides by
  the literal `2^25`; the frame run's post states these lines' results over the region's final arrays, and the result
  array ends at the running total after the last point (`Accumulation.final_out`). So for any float instance @main's
  result is those two host lines applied to the running total (`run`). At the extended reals the running total is
  `0 + ∑ₖ cos (φₖ · wₖ)`: each point adds its block's sum (`PointValue.payload_apply`), a block's entry is the argument's
  entry at its flat position (`BlockRead`), the first point starts from zero, and the 32 blocks' row-by-row sums add up
  to the sum over all positions (`SumCos.blocks_total`).
-/
import proofs.«153729_j19258633355996_1_alg».proof.Proof.Accumulation
import proofs.«153729_j19258633355996_1_alg».proof.Proof.PointValue
import proofs.«153729_j19258633355996_1_alg».proof.Proof.BlockRead
import proofs.«153729_j19258633355996_1_alg».proof.Proof.SumCos
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Accumulation Cert.Proof

section AnyInstance

variable {F : FTy → Type} [FloatOps F]
variable (m : (ℓ : Loc nD τ sig) → Buf (Elt F) ℓ) (ρ : Dev nD → PrngReg)

/-- The host lines after the region, over the region's final arrays: the result array reshaped to a scalar, plus the
    literal zero, over the literal `2^25`. -/
theorem tail_eq (c : Dev nD) : Pipeline.afterTail₀ cfgs (dats m) 0 (V0 m) [hostOps1] c main_v5
    = Host.divf (addf (shapeCast S_ (result m c) shapeCasts_S1x1_S_) (constant S_ .f32 0x00000000#32)) (constant S_ .f32 0x4C000000#32) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.tc.devRef main_v2) = result m c :=
    (Pipeline.withArrays_arr spec0 launch0.win.arr_inj c _ _ 2).trans (final_out m c)
  rw [e]
  rfl

/-- Every weakly fair execution of @main terminates with its result at those host lines of the running total, and the
    two arguments unchanged. -/
theorem run : θ_run defs (onTc (τ := τ) (main (F := F))) ⟨m, fun _ => 0, ρ⟩ fun r => ∀ c : Dev nD,
      r.2.mem ((c : Thread nD τ).loc main_v5)
        = Host.divf (addf (shapeCast S_ (result m c) shapeCasts_S1x1_S_) (constant S_ .f32 0x00000000#32)) (constant S_ .f32 0x4C000000#32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end AnyInstance

/-! ## The running total at the extended reals -/

variable (m : (ℓ : Loc nD τ sig) → Buf (Elt Ideal) ℓ)

/-- The first argument `φ` as launched, as a function on flat positions. -/
abbrev phi (c : Dev nD) : (⟨1, ![33554432]⟩ : Shape).Idx → EReal := m ((c : Thread nD τ).loc main_arg0)
/-- The second argument `w`. -/
abbrev wts (c : Dev nD) : (⟨1, ![33554432]⟩ : Shape).Idx → EReal := m ((c : Thread nD τ).loc main_arg1)

/-- Point `t`'s block sum, in flat positions. -/
def blockSum (c : Dev nD) (t : ℕ) : EReal :=
  ∑ r : Fin 8192, ∑ l : Fin 128, SumCos.term (phi m c) (wts m c) (t * (8192 * 128) + (r.val * 128 + l.val))

/-- A block's entry is the argument's entry at its flat position, over the blocks' literal types. -/
theorem phiBlk_apply (c : Dev nD) (t : Fin cfg0.N) (r : Fin 8192) (l : Fin 128) :
    phiBlk m c t (ix2 r l) = phi m c (ix1 ⟨t.val * (8192 * 128) + (r.val * 128 + l.val), BlockRead.flat_lt t r l⟩) :=
  BlockRead.phiBlk_apply m c t r l
theorem wBlk_apply (c : Dev nD) (t : Fin cfg0.N) (r : Fin 8192) (l : Fin 128) :
    wBlk m c t (ix2 r l) = wts m c (ix1 ⟨t.val * (8192 * 128) + (r.val * 128 + l.val), BlockRead.flat_lt t r l⟩) :=
  BlockRead.wBlk_apply m c t r l

/-- The sum of `cos (x₀ · x₁)` over point `t`'s two blocks is that block sum: entry `(r, l)` of either block is the
    argument's entry at flat position `t · 2^20 + (r · 128 + l)`. -/
theorem blocks_sum_eq (c : Dev nD) (t : Fin cfg0.N) :
    ∑ r : Fin 8192, ∑ l : Fin 128, Ideal.cos (phiBlk m c t (ix2 r l) * wBlk m c t (ix2 r l)) = blockSum m c t.val :=
  Finset.sum_congr rfl fun r _ => Finset.sum_congr rfl fun l _ => by
    rw [SumCos.term_of_lt _ _ (BlockRead.flat_lt t r l), phiBlk_apply m c t r l, wBlk_apply m c t r l]

/-- The running total after point `n`, at its one index: zero plus the block sums of the points up to `n`. -/
theorem acc_apply (c : Dev nD) (j : S1x1.Idx) : ∀ (n : ℕ) (h : n < cfg0.N),
    acc m c n h j = 0 + ∑ t ∈ Finset.range (n + 1), blockSum m c t :=
  BlockSums.running_total cfg0.N 0 (blockSum m c) (fun n h => acc m c n h j)
    (fun h => by
      show k0_pay2 (phiBlk m c ⟨0, h⟩) (wBlk m c ⟨0, h⟩) (k0_pay1 (F := Ideal)) j = _
      rw [PointValue.payload_apply, PointValue.reset_apply, blocks_sum_eq m c ⟨0, h⟩])
    (fun n h => by
      show k0_pay2 (phiBlk m c ⟨n + 1, h⟩) (wBlk m c ⟨n + 1, h⟩) (acc m c n _) j = _
      rw [PointValue.payload_apply, blocks_sum_eq m c ⟨n + 1, h⟩])

/-- The result array's one entry after the run: zero plus the sum of `cos (φₖ · wₖ)` over all `2^25` positions. -/
theorem result_apply (c : Dev nD) (j : S1x1.Idx) : result m c j = 0 + SumCos.total (phi m c) (wts m c) := by
  rw [show result m c j = acc m c tLast.val tLast.isLt j from rfl, acc_apply m c j]
  exact congrArg (0 + ·) (SumCos.blocks_total (phi m c) (wts m c))

/-- @main's result at the extended reals: the closing host lines of `0 + ∑ₖ cos (φₖ · wₖ)`. -/
theorem value_eq (c : Dev nD) :
    Host.divf (F := Ideal) (addf (shapeCast S_ (result m c) shapeCasts_S1x1_S_) (constant (F := Ideal) S_ .f32 0x00000000#32)) (constant (F := Ideal) S_ .f32 0x4C000000#32)
      = SumCos.mean (fun _ => 0 + SumCos.total (phi m c) (wts m c)) := by
  show SumCos.mean (shapeCast S_ (result m c) shapeCasts_S1x1_S_) = _
  refine congrArg SumCos.mean (funext fun i => ?_)
  refine (shapeCast_apply (result m c) shapeCasts_S1x1_S_ i (ix2 (0 : Fin 1) (0 : Fin 1)) ?_).trans (result_apply m c _)
  have e1 : S1x1.numel = 1 := Shape.numel_eq_one fun a => by fin_cases a <;> rfl
  have e2 : S_.numel = 1 := Shape.numel_eq_one fun a => a.elim0
  have h1 := (S1x1.rowMajor (ix2 (0 : Fin 1) (0 : Fin 1))).isLt
  have h2 := (S_.rowMajor i).isLt
  show (S1x1.rowMajor (ix2 (0 : Fin 1) (0 : Fin 1))).val = (S_.rowMajor i).val
  omega

end Cert.KernelIdeal.KernelRun

end
-- ==== Proof.LibRankOneSum.lean ====
/-
  A sum over a rank-1 index set is the sum over its one coordinate: the rank-1 companion of the library's
  `idxEquiv2` / `sum_idx2`, for any extent.
-/
import Idealize.ShloMosaic.Lib.ValueIdx

noncomputable section

namespace Idealize.ShloMosaic.RankOneSum

open Idealize.ShloMosaic Idealize.ShloMosaic.ValueIdx

/-- A rank-1 index set is its coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

end Idealize.ShloMosaic.RankOneSum

end
-- ==== Proof.RefValue.lean ====
/-
  The reference, read as a number. The reference multiplies the two flat arguments entry by entry (`w · φ`, in that
  order), takes the cosine, sums all `2^25` entries from the zero initial value, adds the literal zero and divides by the
  literal `2^25`. At the extended reals the host's sum is the initial value plus the plain sum over every index, so the
  result is the same closing host lines as the kernel's, applied to `0 + ∑ₖ cos (φₖ · wₖ)`; the one law used is that the
  product of two extended reals does not depend on the order of its factors.
-/
import proofs.«153729_j19258633355996_1_alg».proof.Proof.Gen.ReferenceIdeal.Read
import proofs.«153729_j19258633355996_1_alg».proof.Proof.LibRankOneSum
import proofs.«153729_j19258633355996_1_alg».proof.Proof.SumCos

noncomputable section

open Idealize.ShloMosaic Idealize.ShloMosaic.ValueIdx

namespace Cert.ReferenceIdeal.RefValue

open Cert.ReferenceIdeal Cert.ReferenceIdeal.Gen Cert.ReferenceIdeal.Read Cert.Proof

/-- The reference's sum at its one index: zero plus the sum of `cos (φₖ · wₖ)` over all positions (the reference
    writes the product as `wₖ · φₖ`). -/
theorem sum_apply (x0 x1 : (⟨S33554432, .f32⟩ : BufTy).Contents (Elt Ideal)) (i : S_.Idx) :
    val_main_v2 (F := Ideal) x0 x1 i = 0 + SumCos.total x0 x1 := by
  rw [val_main_v2_apply, val_main_cst_apply]
  show Ideal.ofBits .f32 0x00000000#32 + _ = _
  rw [Ideal.ofBits_zero_f32, RankOneSum.sum_idx1, SumCos.total_eq_sum_fin]
  refine congrArg (0 + ·) (Finset.sum_congr rfl fun k _ => ?_)
  show Ideal.cos (x1 (ix1 k) * x0 (ix1 k)) = Ideal.cos (x0 (ix1 k) * x1 (ix1 k))
  rw [mul_comm]

/-- The reference's result: the closing host lines of that sum. -/
theorem value_eq (x0 x1 : (⟨S33554432, .f32⟩ : BufTy).Contents (Elt Ideal)) :
    val_main_v4 (F := Ideal) x0 x1 = SumCos.mean (fun _ => 0 + SumCos.total x0 x1) := by
  show SumCos.mean (val_main_v2 (F := Ideal) x0 x1) = _
  exact congrArg SumCos.mean (funext fun i => sum_apply x0 x1 i)

end Cert.ReferenceIdeal.RefValue

end
-- ==== Proof.lean ====
/-
  The certificate of a streaming sum of cosines: for two flat f32 arrays `φ`, `w` of `2^25` entries, the kernel and its
  jnp reference both return

      (0 + ∑ₖ cos (φₖ · wₖ) + 0) / 2^25

  at the extended reals. The kernel views the arrays as `[262144, 128]`, walks 32 blocks of 8192 rows, adds up each
  block's `cos (φ · w)` lane by lane and row by row, keeps a running total in a `[1, 1]` scratch that it resets at the
  first block, and copies the total out after the last; the reference takes one sum over the flat arrays of
  `cos (w · φ)`. Both then add the literal zero and divide by the literal `2^25`. The two sums agree because addition
  of extended reals is associative and commutative with zero (so any grouping of the `2^25` terms has the same sum:
  Proof/BlockSums.lean) and multiplication is commutative; no finiteness of the inputs is used.

  The modules: Proof/BlockSums.lean (nested sums over blocks, rows and lanes; a running total), Proof/SumCos.lean (the
  common number), Proof/Pieces.lean (what one run of the body leaves, per control case), Proof/Accumulation.lean (the
  running total point by point, and the result array), Proof/PointValue.lean (the body's payload as a number),
  Proof/BlockRead.lean (a block's entry in the flat argument), Proof/KernelRun.lean (the kernel's run and value),
  Proof/RefValue.lean (the reference's value). The frames of the two kernel programs are the generated ones; the
  reference's is its generated run with the result dropped; the idealization changed no operation.
-/
import proofs.«153729_j19258633355996_1_alg».proof.Defs
import proofs.«153729_j19258633355996_1_alg».proof.Proof.Gen.Kernel
import proofs.«153729_j19258633355996_1_alg».proof.Proof.Gen.Kernel.Frame
import proofs.«153729_j19258633355996_1_alg».proof.Proof.Gen.KernelIdeal
import proofs.«153729_j19258633355996_1_alg».proof.Proof.Gen.KernelIdeal.Frame
import proofs.«153729_j19258633355996_1_alg».proof.Proof.Gen.ReferenceIdeal
import proofs.«153729_j19258633355996_1_alg».proof.Proof.Gen.ReferenceIdeal.Run
import proofs.«153729_j19258633355996_1_alg».proof.Proof.Gen.ReferenceIdeal.Read
import proofs.«153729_j19258633355996_1_alg».proof.Proof.Gen.Pre_finite_inputs
import proofs.«153729_j19258633355996_1_alg».proof.Proof.KernelRun
import proofs.«153729_j19258633355996_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `φ` and `w`, both programs end with the closing host lines of `0 + ∑ₖ cos (φₖ · wₖ)`. -/
theorem algebraic : Cert.algebraic_KernelIdeal_ReferenceIdeal := by
  intro m ρ m' ρ' _ hagree
  refine ⟨fun c => SumCos.mean (fun _ => 0 + SumCos.total (Cert.KernelIdeal.KernelRun.phi m c) (Cert.KernelIdeal.KernelRun.wts m c)), ?_, ?_⟩
  · exact (θ_run Cert.KernelIdeal.defs _ _).mono
      (fun _ h c => ⟨(h c).1.trans (Cert.KernelIdeal.KernelRun.value_eq m c), (h c).2⟩)
      (Cert.KernelIdeal.KernelRun.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.RefValue.value_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
